-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x2048 : Shape := ⟨2, ![2048, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S16384x2048 .f32) (main_arg1 : FVec F S2048x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S16384x2048 : Shape := ⟨2, ![16384, 2048]⟩
abbrev S2048x2048 : Shape := ⟨2, ![2048, 2048]⟩
abbrev S1x2048 : Shape := ⟨2, ![1, 2048]⟩
abbrev S2047x2048 : Shape := ⟨2, ![2047, 2048]⟩
abbrev S2048x1 : Shape := ⟨2, ![2048, 1]⟩
abbrev S2048x2047 : Shape := ⟨2, ![2048, 2047]⟩
abbrev S512x2048 : Shape := ⟨2, ![512, 2048]⟩

abbrev nBuf : Space → Nat
  | .hbm => 31
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2047x2048, .f32⟩
  | .hbm, ⟨22, _⟩ => ⟨S2048x2048, .f32⟩
  | .hbm, ⟨23, _⟩ => ⟨S2048x2048, .f32⟩
  | .hbm, ⟨24, _⟩ => ⟨S2048x1, .f32⟩
  | .hbm, ⟨25, _⟩ => ⟨S2048x2047, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .bf16⟩
  | .hbm, ⟨30, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_v1 : Ref sig .tc := ⟨.hbm, 4, rfl⟩
abbrev main_call1_v0 : Ref sig .tc := ⟨.hbm, 5, rfl⟩
abbrev main_v2 : Ref sig .tc := ⟨.hbm, 6, rfl⟩
abbrev main_v3 : Ref sig .tc := ⟨.hbm, 7, rfl⟩
abbrev main_call2_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call3_v0 : Ref sig .tc := ⟨.hbm, 20, rfl⟩
abbrev main_call3_v1 : Ref sig .tc := ⟨.hbm, 21, rfl⟩
abbrev main_v15 : Ref sig .tc := ⟨.hbm, 22, rfl⟩
abbrev main_v16 : Ref sig .tc := ⟨.hbm, 23, rfl⟩
abbrev main_call4_v0 : Ref sig .tc := ⟨.hbm, 24, rfl⟩
abbrev main_call4_v1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S2048x2048_S2048x2048_1_0 : S2048x2048.Transposes [1, 0] S2048x2048
  slices_S2048x2048_S1x2048_2047_0 : S2048x2048.Slices ![2047, 0] S1x2048
  slices_S2048x2048_S2047x2048_0_0 : S2048x2048.Slices ![0, 0] S2047x2048
  concatenates_S1x2048_S2047x2048_S2048x2048_d0 : Shape.Concatenates [S1x2048, S2047x2048] S2048x2048 0
  slices_S2048x2048_S2048x1_0_2047 : S2048x2048.Slices ![0, 2047] S2048x1
  slices_S2048x2048_S2048x2047_0_0 : S2048x2048.Slices ![0, 0] S2048x2047
  concatenates_S2048x1_S2048x2047_S2048x2048_d1 : Shape.Concatenates [S2048x1, S2048x2047] S2048x2048 1
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .f32 = 32 ∨ (Rect.block (s := S16384x2048) S512x2048.size (cc0_transform_2 i) (hinb0_2 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x2048 : Shape := ⟨2, ![2048, 2048]⟩
abbrev S1x2048 : Shape := ⟨2, ![1, 2048]⟩
abbrev S2047x2048 : Shape := ⟨2, ![2047, 2048]⟩
abbrev S2048x1 : Shape := ⟨2, ![2048, 1]⟩
abbrev S2048x2047 : Shape := ⟨2, ![2048, 2047]⟩

abbrev nBuf : Space → Nat
  | .hbm => 31
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x2048, .f32⟩
  | .hbm, ⟨2, _⟩ => ⟨S2048x2048, .f32⟩
  | .hbm, ⟨3, _⟩ => ⟨S16384x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S1x2048, .f32⟩
  | .hbm, ⟨22, _⟩ => ⟨S2047x2048, .f32⟩
  | .hbm, ⟨23, _⟩ => ⟨S2048x2048, .f32⟩
  | .hbm, ⟨24, _⟩ => ⟨S2048x2048, .f32⟩
  | .hbm, ⟨25, _⟩ => ⟨S2048x1, .f32⟩
  | .hbm, ⟨26, _⟩ => ⟨S2048x2047, .f32⟩
  | .hbm, ⟨27, _⟩ => ⟨S2048x2048, .f32⟩
  | .hbm, ⟨28, _⟩ => ⟨S2048x2048, .f32⟩
  | .hbm, ⟨29, _⟩ => ⟨S16384x2048, .f32⟩
  | .hbm, ⟨30, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_v2 : Ref sig .tc := ⟨.hbm, 5, rfl⟩
abbrev main_call1_v0 : Ref sig .tc := ⟨.hbm, 6, rfl⟩
abbrev main_v3 : Ref sig .tc := ⟨.hbm, 7, rfl⟩
abbrev main_v4 : Ref sig .tc := ⟨.hbm, 8, rfl⟩
abbrev main_call2_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call3_v0 : Ref sig .tc := ⟨.hbm, 21, rfl⟩
abbrev main_call3_v1 : Ref sig .tc := ⟨.hbm, 22, rfl⟩
abbrev main_v16 : Ref sig .tc := ⟨.hbm, 23, rfl⟩
abbrev main_v17 : Ref sig .tc := ⟨.hbm, 24, rfl⟩
abbrev main_call4_v0 : Ref sig .tc := ⟨.hbm, 25, rfl⟩
abbrev main_call4_v1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  transposes_S2048x2048_S2048x2048_1_0 : S2048x2048.Transposes [1, 0] S2048x2048
  slices_S2048x2048_S1x2048_2047_0 : S2048x2048.Slices ![2047, 0] S1x2048
  slices_S2048x2048_S2047x2048_0_0 : S2048x2048.Slices ![0, 0] S2047x2048
  concatenates_S1x2048_S2047x2048_S2048x2048_d0 : Shape.Concatenates [S1x2048, S2047x2048] S2048x2048 0
  slices_S2048x2048_S2048x1_0_2047 : S2048x2048.Slices ![0, 2047] S2048x1
  slices_S2048x2048_S2048x2047_0_0 : S2048x2048.Slices ![0, 0] S2048x2047
  concatenates_S2048x1_S2048x2047_S2048x2048_d1 : Shape.Concatenates [S2048x1, S2048x2047] S2048x2048 1
  dot_S16384x2048_S2048x2048_S16384x2048_1_0_0_1_n_n_wf : DotDims.WF S16384x2048 S2048x2048 S16384x2048 [1] [0] [0] [1] [] []

variable [Facts₀]

def dot_S16384x2048_S2048x2048_S16384x2048_1_0_0_1_n_n : DotDims S16384x2048 S2048x2048 S16384x2048 where
  lhsContracting := [1]
  rhsContracting := [0]
  lhsNonContracting := [0]
  rhsNonContracting := [1]
  lhsBatch := []
  rhsBatch := []
  wf := dot_S16384x2048_S2048x2048_S16384x2048_1_0_0_1_n_n_wf

class Facts : Prop extends Facts₀ where

variable [Facts]
-- ==== Proof.FiniteEntries.lean ====
/-
  The precondition read back: both arguments hold real numbers only.

  The precondition states, for each argument, that every entry's absolute value is strictly below the word of
  positive infinity.  Over the extended reals the absolute value of x is max x (-x), and +infinity's word denotes the
  top element, so the strict inequality excludes both infinities and leaves exactly the real numbers.
-/
import proofs.«148206_j85641647882597_1_alg».proof.Pre_finite_inputs
import proofs.«148206_j85641647882597_1_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.FiniteEntries

open Idealize.ShloMosaic Cert.Pre_finite_inputs

/-- The rank-0 shape has one index. -/
instance : Subsingleton S_.Idx := ⟨fun _ _ => funext fun d => d.elim0⟩

/-- An extended real whose absolute value compares strictly below the word of +infinity is a real number. -/
theorem real_of_abs_lt (x : Ideal .f32)
    (h : FloatOps.cmpf .olt (FloatOps.hostAbsf x) (FloatOps.ofBits (F := Ideal) .f32 0x7F800000#32) = 1#1) :
    ∃ r : ℝ, x = (r : EReal) := by
  induction x using EReal.rec with
  | bot => exact absurd h (by simp [Ideal.cmpf_def, Ideal.absf_def, Ideal.cmp, Ideal.ofBits, Ideal.ieee])
  | coe r => exact ⟨r, rfl⟩
  | top => exact absurd h (by simp [Ideal.cmpf_def, Ideal.absf_def, Ideal.cmp, Ideal.ofBits, Ideal.ieee])

/-- Under the precondition every entry of either argument is a real number. -/
theorem real_entries (x : FVec Ideal S16384x2048 .f32) (W : FVec Ideal S2048x2048 .f32)
    (h : Cert.Pre_finite_inputs.fn (F := Ideal) x W = fun _ => 1#1) :
    (∀ i, ∃ r : ℝ, x i = (r : EReal)) ∧ (∀ i, ∃ r : ℝ, W i = (r : EReal)) := by
  have h0 := congrFun h ValueIdx.ix0
  dsimp only [Cert.Pre_finite_inputs.fn] at h0
  obtain ⟨h1, h2⟩ := IntOp.andi_eq_one.1 h0
  exact ⟨fun i => real_of_abs_lt _ (Host.reduce_andi_all _ _ _ _ _ h1 i),
    fun i => real_of_abs_lt _ (Host.reduce_andi_all _ _ _ _ _ h2 i)⟩

end Cert.FiniteEntries

end
-- ==== Proof.WeightSum.lean ====
/-
  The summed permuted weight: the sum of nine index-permuted copies of a square 2048 x 2048 matrix W, in the order the
  programs add them — the three quarter-turn rotations, the transpose, the row flip, the column flip, the transpose
  flipped on both axes, the rows rolled by one and the columns rolled by one.  A rotation is a flip composed with a
  transpose; a roll by one is the last row (column) set in front of the others.  Both programs build this matrix with
  the same host operations in the same order, so it is carried as one function of W and never opened.
-/
import Idealize.ShloMosaic.PureOps
import Idealize.ShloMosaic.PureOps.Ideal

noncomputable section

namespace Cert.WeightSum

open Idealize.ShloMosaic

abbrev Sq : Shape := ⟨2, ![2048, 2048]⟩
abbrev LastRow : Shape := ⟨2, ![1, 2048]⟩
abbrev FirstRows : Shape := ⟨2, ![2047, 2048]⟩
abbrev LastCol : Shape := ⟨2, ![2048, 1]⟩
abbrev FirstCols : Shape := ⟨2, ![2048, 2047]⟩

/-- The shape relations the layout operations take. -/
structure Rel : Prop where
  tr : Sq.Transposes [1, 0] Sq
  lastRow : Sq.Slices ![2047, 0] LastRow
  firstRows : Sq.Slices ![0, 0] FirstRows
  catRows : Shape.Concatenates [LastRow, FirstRows] Sq 0
  lastCol : Sq.Slices ![0, 2047] LastCol
  firstCols : Sq.Slices ![0, 0] FirstCols
  catCols : Shape.Concatenates [LastCol, FirstCols] Sq 1

variable {F : FTy → Type} [FloatOps F]

/-- The nine permuted copies of W added left to right. -/
def permSum (h : Rel) (W : FVec F Sq .f32) : FVec F Sq .f32 :=
  addf (addf (addf (addf (addf (addf (addf (addf
    (transpose Sq [1, 0] (Host.reverse [1] W) h.tr)
    (Host.reverse [1] (Host.reverse [0] W)))
    (Host.reverse [1] (transpose Sq [1, 0] W h.tr)))
    (transpose Sq [1, 0] W h.tr))
    (Host.reverse [0] W))
    (Host.reverse [1] W))
    (Host.reverse [0, 1] (transpose Sq [1, 0] W h.tr)))
    (concatenate Sq 0 [⟨LastRow, extractStridedSlice LastRow ![2047, 0] W h.lastRow⟩,
      ⟨FirstRows, extractStridedSlice FirstRows ![0, 0] W h.firstRows⟩] h.catRows))
    (concatenate Sq 1 [⟨LastCol, extractStridedSlice LastCol ![0, 2047] W h.lastCol⟩,
      ⟨FirstCols, extractStridedSlice FirstCols ![0, 0] W h.firstCols⟩] h.catCols)

end Cert.WeightSum

end
-- ==== Proof.KernelWeight.lean ====
/-
  The weight operand the kernel is launched with.

  Before the one kernel region the host builds the combined weight: the transpose of W plus the summed permuted
  weight S(W), narrowed to bf16.  Reading the host operations back in order gives that term of the second argument.
-/
import proofs.«148206_j85641647882597_1_alg».proof.Proof.Gen.KernelIdeal.Frame
import proofs.«148206_j85641647882597_1_alg».proof.Proof.WeightSum
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.StableHlo

/-- The shape relations of the layout operations, as this program proves them. -/
theorem rel : Cert.WeightSum.Rel :=
  ⟨transposes_S2048x2048_S2048x2048_1_0, slices_S2048x2048_S1x2048_2047_0, slices_S2048x2048_S2047x2048_0_0,
    concatenates_S1x2048_S2047x2048_S2048x2048_d0, slices_S2048x2048_S2048x1_0_2047, slices_S2048x2048_S2048x2047_0_0,
    concatenates_S2048x1_S2048x2047_S2048x2048_d1⟩

variable {F : FTy → Type} [FloatOps F]

/-- The combined weight the host prefix hands the kernel: the transpose plus the summed permuted weight, narrowed. -/
def combined (W : FVec F S2048x2048 .f32) : FVec F S2048x2048 .bf16 :=
  truncf .bf16 (addf (transpose S2048x2048 [1, 0] W transposes_S2048x2048_S2048x2048_1_0) (Cert.WeightSum.permSum rel W))
    bitsLt_bf16_f32

variable (m : (ℓ : Loc nD τ sig) → Buf (Elt F) ℓ)

/-- The weight operand as the region finds it is the combined weight of the second argument. -/
theorem V_weight (c : Dev nD) :
    (V m c main_v20 : FVec F S2048x2048 .bf16) = combined (m ((c : Thread nD τ).loc main_arg1)) := by
  dsimp only [V]
  simp only [hostOps0, hostOps0_1, hostOps0_2, hostOps0_3, hostOps0_4, hostOps0_5, hostOps0_6, hostOps0_7, hostOps0_8, hostOps0_9, List.flatten_cons, List.flatten_nil, List.append_nil,
    List.cons_append, List.nil_append]
  after_results_simp
  rfl

end Cert.KernelIdeal.Hand

end
-- ==== Proof.LibRealFactor.lean ====
/-
  Two general facts about the extended reals as the exact instance computes with them.

  1. A real factor distributes over the sum of ANY extended real and a real: r * (w + t) = r * w + r * t.  (Over the
     extended reals multiplication does not distribute over addition in general; here the one possibly infinite
     summand w keeps its sign under the real factor r, or is annihilated by r = 0, and the real summand cannot cancel
     it.)  Termwise under a finite sum this splits sum_k x_k * (w_k + a_k) into sum_k x_k * w_k + sum_k x_k * a_k when
     the x_k and a_k are real.
  2. A plain matrix product — an N x D matrix times a D x H matrix, the first one's columns contracted with the second
     one's rows — read at entry (i, j) is the sum over k of l(i, k) * r(k, j), both for the matrix unit's product
     accumulated into the zero matrix and for the host's product.
-/
import Idealize.ShloMosaic.PureOps.Ideal
import Idealize.ShloMosaic.PureOps.Ideal.Laws
import Idealize.ShloMosaic.Lib.ValueIdx

noncomputable section

namespace Cert.Fold

open Idealize.ShloMosaic Idealize.ShloMosaic.ValueIdx

/-! ## The law -/

/-- A real factor distributes over the sum of an extended real and a real. -/
theorem coe_mul_add_coe (r t : ℝ) (w : EReal) :
    (r : EReal) * (w + (t : EReal)) = (r : EReal) * w + (r : EReal) * (t : EReal) := by
  induction w using EReal.rec with
  | bot =>
    rw [EReal.bot_add]
    rcases lt_trichotomy r 0 with h | h | h
    · rw [EReal.coe_mul_bot_of_neg h, ← EReal.coe_mul, EReal.top_add_coe]
    · subst h; simp
    · rw [EReal.coe_mul_bot_of_pos h, EReal.bot_add]
  | coe w =>
    rw [← EReal.coe_add, ← EReal.coe_mul, ← EReal.coe_mul, ← EReal.coe_mul, ← EReal.coe_add, mul_add]
  | top =>
    rw [EReal.top_add_coe]
    rcases lt_trichotomy r 0 with h | h | h
    · rw [EReal.coe_mul_top_of_neg h, EReal.bot_add]
    · subst h; simp
    · rw [EReal.coe_mul_top_of_pos h, ← EReal.coe_mul, EReal.top_add_coe]

/-- Termwise: a sum of real multiples of `w k + a k`, the `a k` real, is the sum of the multiples of the `w k`
    plus the sum of the multiples of the `a k`. -/
theorem sum_mul_add {ι : Type*} (s : Finset ι) (x w a : ι → EReal)
    (hx : ∀ k, ∃ r : ℝ, x k = (r : EReal)) (ha : ∀ k, ∃ t : ℝ, a k = (t : EReal)) :
    ∑ k ∈ s, x k * (w k + a k) = ∑ k ∈ s, x k * w k + ∑ k ∈ s, x k * a k := by
  rw [← Finset.sum_add_distrib]
  refine Finset.sum_congr rfl fun k _ => ?_
  obtain ⟨r, hr⟩ := hx k
  obtain ⟨t, ht⟩ := ha k
  rw [hr, ht]
  exact coe_mul_add_coe r t (w k)

/-! ## A matrix product at an entry -/

/-- For a plain product of an N x D matrix with a D x H matrix (the first one's columns contracted with the second
    one's rows) the sum over the contraction index at entry (i, j) is the sum over k of l(i, k) r(k, j). -/
theorem contr_sum_rows {N D H : Nat} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![N, D]⟩ : Shape).Idx → EReal) (r : (⟨2, ![D, H]⟩ : Shape).Idx → EReal) (i : Fin N) (j : Fin H) :
    ∑ k : d.contr.Idx, l (d.lhsIdx (ix2 i j) k) * r (d.rhsIdx (ix2 i j) k) = ∑ k : Fin D, l (ix2 i k) * r (ix2 k j) := by
  obtain ⟨lc, rc, ln, rn, lb, rb, wf⟩ := d
  simp only at h1 h2 h3 h4 h5 h6
  subst h1 h2 h3 h4 h5 h6
  rw [← Equiv.sum_comp (contrEquiv1 (⟨[1], [0], [0], [1], [], [], wf⟩ : DotDims ⟨2, ![N, D]⟩ ⟨2, ![D, H]⟩ ⟨2, ![N, H]⟩) D rfl rfl).symm]
  refine Finset.sum_congr rfl fun k _ => ?_
  congr 1
  · refine congrArg l ?_
    funext a
    match a with
    | ⟨0, _⟩ => exact Fin.ext rfl
    | ⟨1, _⟩ => exact Fin.ext rfl
  · refine congrArg r ?_
    funext a
    match a with
    | ⟨0, _⟩ => exact Fin.ext rfl
    | ⟨1, _⟩ => exact Fin.ext rfl

/-- The matrix unit's product accumulated into the zero matrix, at entry (i, j). -/
theorem matmul_zero_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    matmul d prec l r (constant ⟨2, ![N, H]⟩ .f32 0x00000000#32) (ix2 i j) = ∑ k : Fin D, l (ix2 i k) * r (ix2 k j) := by
  simp only [matmul]
  rw [Ideal.matmul_constant_zero_apply]
  exact contr_sum_rows d h1 h2 h3 h4 h5 h6 l r i j

/-- The host's product, at entry (i, j). -/
theorem dotGeneral_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    Host.dotGeneral d prec l r (ix2 i j) = ∑ k : Fin D, l (ix2 i k) * r (ix2 k j) := by
  unfold Host.dotGeneral
  rw [Ideal.dotGeneral_apply]
  exact contr_sum_rows d h1 h2 h3 h4 h5 h6 l r i j

end Cert.Fold

end
-- ==== Proof.KernelValue.lean ====
/-
  What the kernel's result array holds, at the exact instance.

  The grid has 32 points.  Point t stages rows 512 t … 512 t + 511 of x (all 2048 columns), the whole combined weight
  B = Wᵀ + S(W) narrowed to bf16 (which changes nothing at the exact instance), and writes back rows
  512 t … 512 t + 511 of the result.  The body is one matrix product into the zero matrix, so entry (p, q) of the
  block it stores is the sum over k of x(512 t + p, k) · B(k, q).  The 32 row blocks tile the result array, hence the
  whole array ends as the product: entry (i, j) is the sum over k of x(i, k) · B(k, j).
-/
import proofs.«148206_j85641647882597_1_alg».proof.Proof.Gen.KernelIdeal.Value
import proofs.«148206_j85641647882597_1_alg».proof.Proof.KernelWeight
import proofs.«148206_j85641647882597_1_alg».proof.Proof.LibRealFactor
import Idealize.ShloMosaic.Lib.Pipeline.Value
import Idealize.ShloMosaic.Lib.ValueIdx
import Idealize.ShloMosaic.Lib.StableHlo.Run
import Idealize.ShloMosaic.PureOps.Ideal.Laws

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

/-- The matrix product: entry (i, j) is the sum over k of X(i, k) · B(k, j). -/
def prod (X : FVec Ideal S16384x2048 .f32) (B : FVec Ideal S2048x2048 .bf16) : FVec Ideal S16384x2048 .f32 :=
  fun i => ∑ k : Fin 2048, X (ix2 (i 0 : Fin 16384) k) * B (ix2 k (i 1 : Fin 2048))

variable (m : (ℓ : Loc nD τ sig) → Buf (Elt Ideal) ℓ) (ρ : Dev nD → PrngReg)

theorem hz : (![0, 0] : Fin 2 → Nat) = fun _ => 0 := funext fun a => by fin_cases a <;> rfl

/-- The body's payload at an entry: the matrix product of the two loaded blocks into the zero matrix. -/
theorem pay_apply (x0 : Vec Ideal S512x2048 .f32) (x1 : Vec Ideal S2048x2048 .bf16) (j : S512x2048.Idx) :
    k0_pay1 x0 x1 j = ∑ k : Fin 2048, x0 (ix2 (j 0 : Fin 512) k) * x1 (ix2 k (j 1 : Fin 2048)) := by
  obtain ⟨p, q, rfl⟩ : ∃ (p : Fin 512) (q : Fin 2048), j = ix2 p q := ⟨j 0, j 1, eq_ix2 j⟩
  unfold k0_pay1
  refine (Cert.Fold.matmul_zero_rows dot_S512x2048_S2048x2048_S512x2048_1_0_0_1_n_n rfl rfl rfl rfl rfl rfl none _ _ p q).trans ?_
  refine Finset.sum_congr rfl fun k _ => ?_
  rw [shapeCast_self]
  rfl

/-- The printed index maps over the grid: the x window and the result window sit at row block t, column block 0; the
    weight window at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays as the region finds them. -/
theorem flushed_eq (c : Dev nD) (t : Fin cfg0.N) :
    (dats m 0 c).flushed 2 t
      = ((cfg0.win 2).blk t).view.read (Elt Ideal) (prod (V m c main_arg0) (V m c main_v20)) := by
  rw [flushed2]
  unfold out0_2
  rw [View.canon_unit_zero hz]
  simp only [View.ld_unit_zero (S := S512x2048) hz, View.ld_unit_zero (S := S2048x2048) hz]
  obtain ⟨e0, e1, e2, e3, e4, e5⟩ := idx_facts t
  funext j
  show k0_pay1 (iblk m c 0 t) (iblk m c 1 t) j
    = prod (V m c main_arg0) (V m c main_v20) (((cfg0.win 2).blk t).view.emb j)
  refine (pay_apply _ _ j).trans ?_
  refine Finset.sum_congr rfl fun k _ => ?_
  congr 1
  · show V m c main_arg0 (((cfg0.win 0).blk t).view.emb (ix2 (j 0 : Fin 512) k)) = V m c main_arg0 _
    refine congrArg _ ?_
    funext a; apply Fin.ext
    match a with
    | ⟨0, _⟩ =>
      show win0_0.index t (0 : Fin 2) * 512 + 1 * (j 0).val = win0_2.index t (0 : Fin 2) * 512 + 1 * (j 0).val
      omega
    | ⟨1, _⟩ =>
      show win0_0.index t (1 : Fin 2) * 2048 + 1 * k.val = k.val
      omega
  · show V m c main_v20 (((cfg0.win 1).blk t).view.emb (ix2 k (j 1 : Fin 2048))) = V m c main_v20 _
    refine congrArg _ ?_
    funext a; apply Fin.ext
    match a with
    | ⟨0, _⟩ =>
      show win0_1.index t (0 : Fin 2) * 2048 + 1 * k.val = k.val
      omega
    | ⟨1, _⟩ =>
      show win0_1.index t (1 : Fin 2) * 2048 + 1 * (j 1).val = win0_2.index t (1 : Fin 2) * 2048 + 1 * (j 1).val
      omega

/-- An index of the result array is in point t's block iff each coordinate is in the block's range on its axis. -/
theorem mem_blk (t : Fin cfg0.N) (i : S16384x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v21).slice (win0_2.rect t)).set ↔ _
  rw [View.set_slice_whole, Rect.mem_set_unit]
  exact Iff.rfl

/-- The 32 row blocks tile the result array: row i lies in the block of point i / 512. -/
theorem cover (i : S16384x2048.Idx) :
    ∃ t : Fin cfg0.N, (cfg0.win 2).flush t = true ∧ i ∈ ((cfg0.win 2).blk t).view.set := by
  have hi0 : (i 0).val < 16384 := (i 0).isLt
  have hi1 : (i 1).val < 2048 := (i 1).isLt
  have hlt : (i 0).val / 512 < cfg0.N := Nat.lt_of_lt_of_eq (by omega : (i 0).val / 512 < 32) N_0.symm
  obtain ⟨-, -, -, -, e4, e5⟩ := idx_facts ⟨(i 0).val / 512, hlt⟩
  have e4' : win0_2.index ⟨(i 0).val / 512, hlt⟩ (0 : Fin 2) = (i 0).val / 512 := e4
  refine ⟨⟨(i 0).val / 512, hlt⟩, flush0_2 _, ?_⟩
  rw [mem_blk]
  intro a
  match a with
  | ⟨0, _⟩ =>
    show win0_2.index ⟨(i 0).val / 512, hlt⟩ (0 : Fin 2) * 512 ≤ (i 0).val
      ∧ (i 0).val < win0_2.index ⟨(i 0).val / 512, hlt⟩ (0 : Fin 2) * 512 + 512
    omega
  | ⟨1, _⟩ =>
    show win0_2.index ⟨(i 0).val / 512, hlt⟩ (1 : Fin 2) * 2048 ≤ (i 1).val
      ∧ (i 1).val < win0_2.index ⟨(i 0).val / 512, hlt⟩ (1 : Fin 2) * 2048 + 2048
    omega

/-- So the result array ends holding the product of the arrays as the region finds them. -/
theorem final (c : Dev nD) : (dats m 0 c).arrAt 2 cfg0.N = prod (V m c main_arg0) (V m c main_v20) :=
  (dats m 0 c).arrAt_eq_of_cover 2 (prod (V m c main_arg0) (V m c main_v20)) (fun t _ => flushed_eq m c t) cover

/-- The run, read: the result array at the product of the first argument with the combined weight of the second, the
    arguments unchanged. -/
theorem run : θ_run defs (onTc (τ := τ) (main (F := Ideal))) ⟨m, fun _ => 0, ρ⟩ fun r => ∀ c : Dev nD,
      r.2.mem ((c : Thread nD τ).loc main_v21)
        = prod (m ((c : Thread nD τ).loc main_arg0)) (combined (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [V_main_arg0, V_weight])), (h c).2⟩)
    (run_blocks m ρ)

end Cert.KernelIdeal.Hand

end
-- ==== Proof.ReferenceRun.lean ====
/-
  The reference program's run, read back.

  The reference is a straight line of host operations once the outlined helper functions (the quarter-turn
  rotations, the flips and the two rolls) are unfolded at their calls.  Listed in order, every weakly fair execution
  runs them one after another and leaves in each buffer the operations' composed term of the two arguments.  The
  result buffer holds  x · Wᵀ + x · S(W),  two matrix products added, where S(W) is the summed permuted weight.
-/
import proofs.«148206_j85641647882597_1_alg».proof.Proof.Gen.ReferenceIdeal
import proofs.«148206_j85641647882597_1_alg».proof.Proof.WeightSum
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The shape relations of the layout operations, as this program proves them. -/
theorem rel : Cert.WeightSum.Rel :=
  ⟨transposes_S2048x2048_S2048x2048_1_0, slices_S2048x2048_S1x2048_2047_0, slices_S2048x2048_S2047x2048_0_0,
    concatenates_S1x2048_S2047x2048_S2048x2048_d0, slices_S2048x2048_S2048x1_0_2047, slices_S2048x2048_S2048x2047_0_0,
    concatenates_S2048x1_S2048x2047_S2048x2048_d1⟩

/-- @main's 29 operations in order, each helper's operations listed where it is called. -/
abbrev ops : List (HloOp τ sig (Elt F)) :=
  [ unary main_arg1 main_v0 ((transpose S2048x2048 [1, 0] · transposes_S2048x2048_S2048x2048_1_0) : (⟨S2048x2048, .f32⟩ : BufTy).Contents (Elt F) → (⟨S2048x2048, .f32⟩ : BufTy).Contents (Elt F)),
    binary main_arg0 main_v0 main_v1 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    TRef.unary (.of main_arg1 : StableHlo.TRef sig ⟨S2048x2048, .f32⟩) (.of main_call0_v0 : StableHlo.TRef sig ⟨S2048x2048, .f32⟩) (Host.reverse [1]),
    TRef.unary main_call0_call0.v0 (.of main_v2 : StableHlo.TRef sig ⟨S2048x2048, .f32⟩) (transpose S2048x2048 [1, 0] · transposes_S2048x2048_S2048x2048_1_0),
    TRef.unary (.of main_arg1 : StableHlo.TRef sig ⟨S2048x2048, .f32⟩) (.of main_call1_v0 : StableHlo.TRef sig ⟨S2048x2048, .f32⟩) (Host.reverse [0]),
    TRef.unary (main_call1_call0.v0 : StableHlo.TRef sig ⟨S2048x2048, .f32⟩) (.of main_v3 : StableHlo.TRef sig ⟨S2048x2048, .f32⟩) (Host.reverse [1]),
    binary main_v2 main_v3 main_v4 (addf : (⟨S2048x2048, .f32⟩ : BufTy).Contents (Elt F) → (⟨S2048x2048, .f32⟩ : BufTy).Contents (Elt F) → (⟨S2048x2048, .f32⟩ : BufTy).Contents (Elt F)),
    TRef.unary (.of main_arg1 : StableHlo.TRef sig ⟨S2048x2048, .f32⟩) (.of main_call2_v0 : StableHlo.TRef sig ⟨S2048x2048, .f32⟩) (transpose S2048x2048 [1, 0] · transposes_S2048x2048_S2048x2048_1_0),
    TRef.unary (.of main_call2_v0 : StableHlo.TRef sig ⟨S2048x2048, .f32⟩) (.of main_v5 : StableHlo.TRef sig ⟨S2048x2048, .f32⟩) (Host.reverse [1]),
    binary main_v4 main_v5 main_v6 (addf : (⟨S2048x2048, .f32⟩ : BufTy).Contents (Elt F) → (⟨S2048x2048, .f32⟩ : BufTy).Contents (Elt F) → (⟨S2048x2048, .f32⟩ : BufTy).Contents (Elt F)),
    unary main_arg1 main_v7 ((transpose S2048x2048 [1, 0] · transposes_S2048x2048_S2048x2048_1_0) : (⟨S2048x2048, .f32⟩ : BufTy).Contents (Elt F) → (⟨S2048x2048, .f32⟩ : BufTy).Contents (Elt F)),
    binary main_v6 main_v7 main_v8 (addf : (⟨S2048x2048, .f32⟩ : BufTy).Contents (Elt F) → (⟨S2048x2048, .f32⟩ : BufTy).Contents (Elt F) → (⟨S2048x2048, .f32⟩ : BufTy).Contents (Elt F)),
    unary main_arg1 main_v9 (Host.reverse [0] : (⟨S2048x2048, .f32⟩ : BufTy).Contents (Elt F) → (⟨S2048x2048, .f32⟩ : BufTy).Contents (Elt F)),
    binary main_v8 main_v9 main_v10 (addf : (⟨S2048x2048, .f32⟩ : BufTy).Contents (Elt F) → (⟨S2048x2048, .f32⟩ : BufTy).Contents (Elt F) → (⟨S2048x2048, .f32⟩ : BufTy).Contents (Elt F)),
    unary main_arg1 main_v11 (Host.reverse [1] : (⟨S2048x2048, .f32⟩ : BufTy).Contents (Elt F) → (⟨S2048x2048, .f32⟩ : BufTy).Contents (Elt F)),
    binary main_v10 main_v11 main_v12 (addf : (⟨S2048x2048, .f32⟩ : BufTy).Contents (Elt F) → (⟨S2048x2048, .f32⟩ : BufTy).Contents (Elt F) → (⟨S2048x2048, .f32⟩ : BufTy).Contents (Elt F)),
    unary main_arg1 main_v13 ((transpose S2048x2048 [1, 0] · transposes_S2048x2048_S2048x2048_1_0) : (⟨S2048x2048, .f32⟩ : BufTy).Contents (Elt F) → (⟨S2048x2048, .f32⟩ : BufTy).Contents (Elt F)),
    unary main_v13 main_v14 (Host.reverse [0, 1] : (⟨S2048x2048, .f32⟩ : BufTy).Contents (Elt F) → (⟨S2048x2048, .f32⟩ : BufTy).Contents (Elt F)),
    binary main_v12 main_v14 main_v15 (addf : (⟨S2048x2048, .f32⟩ : BufTy).Contents (Elt F) → (⟨S2048x2048, .f32⟩ : BufTy).Contents (Elt F) → (⟨S2048x2048, .f32⟩ : BufTy).Contents (Elt F)),
    TRef.unary (.of main_arg1 : StableHlo.TRef sig ⟨S2048x2048, .f32⟩) (.of main_call3_v0 : StableHlo.TRef sig ⟨S1x2048, .f32⟩) (extractStridedSlice S1x2048 ![2047, 0] · slices_S2048x2048_S1x2048_2047_0),
    TRef.unary (.of main_arg1 : StableHlo.TRef sig ⟨S2048x2048, .f32⟩) (.of main_call3_v1 : StableHlo.TRef sig ⟨S2047x2048, .f32⟩) (extractStridedSlice S2047x2048 ![0, 0] · slices_S2048x2048_S2047x2048_0_0),
    TRef.binary (.of main_call3_v0 : StableHlo.TRef sig ⟨S1x2048, .f32⟩) (.of main_call3_v1 : StableHlo.TRef sig ⟨S2047x2048, .f32⟩) (.of main_v16 : StableHlo.TRef sig ⟨S2048x2048, .f32⟩) (fun a b => concatenate S2048x2048 0 [⟨S1x2048, a⟩, ⟨S2047x2048, b⟩] concatenates_S1x2048_S2047x2048_S2048x2048_d0),
    binary main_v15 main_v16 main_v17 (addf : (⟨S2048x2048, .f32⟩ : BufTy).Contents (Elt F) → (⟨S2048x2048, .f32⟩ : BufTy).Contents (Elt F) → (⟨S2048x2048, .f32⟩ : BufTy).Contents (Elt F)),
    TRef.unary (.of main_arg1 : StableHlo.TRef sig ⟨S2048x2048, .f32⟩) (.of main_call4_v0 : StableHlo.TRef sig ⟨S2048x1, .f32⟩) (extractStridedSlice S2048x1 ![0, 2047] · slices_S2048x2048_S2048x1_0_2047),
    TRef.unary (.of main_arg1 : StableHlo.TRef sig ⟨S2048x2048, .f32⟩) (.of main_call4_v1 : StableHlo.TRef sig ⟨S2048x2047, .f32⟩) (extractStridedSlice S2048x2047 ![0, 0] · slices_S2048x2048_S2048x2047_0_0),
    TRef.binary (.of main_call4_v0 : StableHlo.TRef sig ⟨S2048x1, .f32⟩) (.of main_call4_v1 : StableHlo.TRef sig ⟨S2048x2047, .f32⟩) (.of main_v18 : StableHlo.TRef sig ⟨S2048x2048, .f32⟩) (fun a b => concatenate S2048x2048 1 [⟨S2048x1, a⟩, ⟨S2048x2047, b⟩] concatenates_S2048x1_S2048x2047_S2048x2048_d1),
    binary main_v17 main_v18 main_v19 (addf : (⟨S2048x2048, .f32⟩ : BufTy).Contents (Elt F) → (⟨S2048x2048, .f32⟩ : BufTy).Contents (Elt F) → (⟨S2048x2048, .f32⟩ : BufTy).Contents (Elt F)),
    binary main_arg0 main_v19 main_v20 ((fun l r => Host.dotGeneral dot_S16384x2048_S2048x2048_S16384x2048_1_0_0_1_n_n none l r) : (⟨S16384x2048, .f32⟩ : BufTy).Contents (Elt F) → (⟨S2048x2048, .f32⟩ : BufTy).Contents (Elt F) → (⟨S16384x2048, .f32⟩ : BufTy).Contents (Elt F)),
    binary main_v1 main_v20 main_v21 (addf : (⟨S16384x2048, .f32⟩ : BufTy).Contents (Elt F) → (⟨S16384x2048, .f32⟩ : BufTy).Contents (Elt F) → (⟨S16384x2048, .f32⟩ : BufTy).Contents (Elt F)) ]

set_option maxRecDepth 4096 in
/-- @main is that straight line: the helpers unfolded at their calls, the sequencing reassociated. -/
theorem main_eq (c : Dev nD) : main (F := F) c = seq ops := by
  simp only [main, fn_rot90.body, fn_rot90_0.body, fn_rot90_3.body, fn_flip.body, fn_flip_1.body, fn_flip_2.body,
    fn_roll_static.body, fn_roll_static_4.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., binary_bufs_sub .., unary_bufs_sub .., unary_bufs_sub .., unary_bufs_sub .., unary_bufs_sub .., binary_bufs_sub .., unary_bufs_sub .., unary_bufs_sub .., binary_bufs_sub .., unary_bufs_sub .., binary_bufs_sub .., unary_bufs_sub .., binary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub ..⟩

/-- What the result buffer ends holding, as a function of the two arguments: the product with the transposed
    weight plus the product with the summed permuted weight. -/
def result (x : FVec F S16384x2048 .f32) (W : FVec F S2048x2048 .f32) : FVec F S16384x2048 .f32 :=
  addf (Host.dotGeneral dot_S16384x2048_S2048x2048_S16384x2048_1_0_0_1_n_n none x
      (transpose S2048x2048 [1, 0] W transposes_S2048x2048_S2048x2048_1_0))
    (Host.dotGeneral dot_S16384x2048_S2048x2048_S16384x2048_1_0_0_1_n_n none x (Cert.WeightSum.permSum rel W))

/-- The fold of the operations at the result buffer is `result` of the fold's starting contents at the arguments. -/
theorem after_result (V : Valuation τ sig (Elt F)) :
    after ops V (Proc.devRef .tc main_v21) = result (V (Proc.devRef .tc main_arg0)) (V (Proc.devRef .tc main_arg1)) := by
  after_results_simp
  rfl

/-- Every weakly fair execution of @main terminates with the result buffer at `result` of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v21)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v21).trans (after_result _),
      (h c main_arg0).trans (by after_results),
      (h c main_arg1).trans (by after_results)⟩)
    (run_seq scopedRefs_eq scopedSems_eq defs main (fun _ => ops) main_eq (fun _ => ops_sub) m ρ)

end Cert.ReferenceIdeal.Hand

end
-- ==== Proof.Bridge.lean ====
/-
  The two results are one array.

  The kernel's result is  x · (Wᵀ + S(W))  and the reference's is  x · Wᵀ + x · S(W), entry by entry

      sum_k x(i,k) · (Wᵀ(k,j) + S(W)(k,j))   against   sum_k x(i,k) · Wᵀ(k,j)  +  sum_k x(i,k) · S(W)(k,j).

  Over the extended reals a factor does not distribute over a sum in general.  It does when the factor is real and
  one of the two summands is real: the entries of x and of W are real under the precondition, an entry of the
  transpose Wᵀ is an entry of W, and S(W)(k,j) may then be any extended real.
-/
import proofs.«148206_j85641647882597_1_alg».proof.Proof.KernelValue
import proofs.«148206_j85641647882597_1_alg».proof.Proof.ReferenceRun
import proofs.«148206_j85641647882597_1_alg».proof.Proof.LibRealFactor
import Idealize.ShloMosaic.Lib.ValueIdx

noncomputable section

namespace Cert.Bridge

open Idealize.ShloMosaic Idealize.ShloMosaic.ValueIdx

/-- The transposed weight. -/
abbrev WT (W : FVec Ideal Cert.KernelIdeal.S2048x2048 .f32) : FVec Ideal Cert.KernelIdeal.S2048x2048 .f32 :=
  transpose Cert.KernelIdeal.S2048x2048 [1, 0] W Cert.KernelIdeal.Gen.transposes_S2048x2048_S2048x2048_1_0

/-- The summed permuted weight. -/
abbrev Ws (W : FVec Ideal Cert.KernelIdeal.S2048x2048 .f32) : FVec Ideal Cert.KernelIdeal.S2048x2048 .f32 :=
  Cert.WeightSum.permSum Cert.KernelIdeal.Hand.rel W

/-- The reference's result at an entry: the two products' sums added. -/
theorem reference_apply (x : FVec Ideal Cert.KernelIdeal.S16384x2048 .f32) (W : FVec Ideal Cert.KernelIdeal.S2048x2048 .f32)
    (p : Fin 16384) (q : Fin 2048) :
    Cert.ReferenceIdeal.Hand.result (F := Ideal) x W (ix2 p q)
      = ∑ k : Fin 2048, x (ix2 p k) * WT W (ix2 k q) + ∑ k : Fin 2048, x (ix2 p k) * Ws W (ix2 k q) := by
  unfold Cert.ReferenceIdeal.Hand.result
  rw [addf_apply,
    Cert.Fold.dotGeneral_rows Cert.ReferenceIdeal.dot_S16384x2048_S2048x2048_S16384x2048_1_0_0_1_n_n rfl rfl rfl rfl rfl rfl,
    Cert.Fold.dotGeneral_rows Cert.ReferenceIdeal.dot_S16384x2048_S2048x2048_S16384x2048_1_0_0_1_n_n rfl rfl rfl rfl rfl rfl]

/-- The kernel's result at an entry: one product's sum, each factor of the weight the sum of the two. -/
theorem kernel_apply (x : FVec Ideal Cert.KernelIdeal.S16384x2048 .f32) (W : FVec Ideal Cert.KernelIdeal.S2048x2048 .f32)
    (p : Fin 16384) (q : Fin 2048) :
    Cert.KernelIdeal.Hand.prod x (Cert.KernelIdeal.Hand.combined W) (ix2 p q)
      = ∑ k : Fin 2048, x (ix2 p k) * (WT W (ix2 k q) + Ws W (ix2 k q)) := rfl

/-- With real entries in both arguments, the reference's sum of two products is the kernel's one product with the
    combined weight. -/
theorem result_eq (x : FVec Ideal Cert.KernelIdeal.S16384x2048 .f32) (W : FVec Ideal Cert.KernelIdeal.S2048x2048 .f32)
    (hx : ∀ i, ∃ r : ℝ, x i = (r : EReal)) (hW : ∀ i, ∃ r : ℝ, W i = (r : EReal)) :
    Cert.ReferenceIdeal.Hand.result (F := Ideal) x W = Cert.KernelIdeal.Hand.prod x (Cert.KernelIdeal.Hand.combined W) := by
  funext i
  obtain ⟨p, q, rfl⟩ : ∃ (p : Fin 16384) (q : Fin 2048), i = ix2 p q := ⟨i 0, i 1, eq_ix2 i⟩
  rw [reference_apply, kernel_apply, add_comm]
  refine (Cert.Fold.sum_mul_add Finset.univ (fun k : Fin 2048 => x (ix2 p k)) (fun k : Fin 2048 => Ws W (ix2 k q))
    (fun k : Fin 2048 => WT W (ix2 k q)) (fun k => hx _) (fun k => hW _)).symm.trans ?_
  exact Finset.sum_congr rfl fun k _ => congrArg (x (ix2 p k) * ·) (add_comm _ _)

end Cert.Bridge

end
-- ==== Proof.lean ====
/-
  The certificate: a dense layer whose output adds the plain linear map x · Wᵀ to the same input times the sum S(W) of
  nine index-permuted copies of the weight, against a kernel that folds both into one matrix product with the
  combined weight Wᵀ + S(W).

  The kernel's frames are its generated frame certificate.  The reference is a straight line of host operations;
  its frame is its run with the result dropped.  The idealization rewrote nothing, so the kernel is its own
  idealization.  For the value claim the kernel's result array is the product of x with the combined weight (the 32
  row blocks the grid writes tile it), the reference's is the sum of the two products, and under the precondition
  — every entry of x and of W a real number — the two agree entry by entry by distributing each real x(i,k) over
  Wᵀ(k,j) + S(W)(k,j).
-/
import proofs.«148206_j85641647882597_1_alg».proof.Defs
import proofs.«148206_j85641647882597_1_alg».proof.Proof.Gen.Kernel
import proofs.«148206_j85641647882597_1_alg».proof.Proof.Gen.Kernel.Skeleton
import proofs.«148206_j85641647882597_1_alg».proof.Proof.Gen.Kernel.Launch
import proofs.«148206_j85641647882597_1_alg».proof.Proof.Gen.Kernel.Points
import proofs.«148206_j85641647882597_1_alg».proof.Proof.Gen.Kernel.Frame
import proofs.«148206_j85641647882597_1_alg».proof.Proof.Gen.KernelIdeal
import proofs.«148206_j85641647882597_1_alg».proof.Proof.Gen.KernelIdeal.Skeleton
import proofs.«148206_j85641647882597_1_alg».proof.Proof.Gen.KernelIdeal.Launch
import proofs.«148206_j85641647882597_1_alg».proof.Proof.Gen.KernelIdeal.Points
import proofs.«148206_j85641647882597_1_alg».proof.Proof.Gen.KernelIdeal.Frame
import proofs.«148206_j85641647882597_1_alg».proof.Proof.Gen.KernelIdeal.Value
import proofs.«148206_j85641647882597_1_alg».proof.Proof.Gen.ReferenceIdeal
import proofs.«148206_j85641647882597_1_alg».proof.Proof.Gen.Pre_finite_inputs
import proofs.«148206_j85641647882597_1_alg».proof.Proof.FiniteEntries
import proofs.«148206_j85641647882597_1_alg».proof.Proof.KernelValue
import proofs.«148206_j85641647882597_1_alg».proof.Proof.ReferenceRun
import proofs.«148206_j85641647882597_1_alg».proof.Proof.Bridge
import Idealize.ShloMosaic.Adequacy
import Idealize.ShloMosaic.Init

noncomputable section

namespace Cert.Proof

open Idealize.ShloMosaic Idealize.SL.Sem

/-- The reference terminates with its arguments unchanged: its run, the result dropped. -/
theorem frame_reference : Cert.frame_ReferenceIdeal := fun m ρ _ =>
  (θ_run Cert.ReferenceIdeal.defs _ _).mono (fun _ h c => (h c).2) (Cert.ReferenceIdeal.Hand.run (F := Ideal) m ρ)

/-- From memories agreeing on x and W, both real-valued, the kernel's product with the combined weight and the
    reference's sum of two products are the same array. -/
theorem algebraic : Cert.algebraic_KernelIdeal_ReferenceIdeal := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2]
  obtain ⟨hx, hW⟩ := Cert.FiniteEntries.real_entries _ _ (hpre c)
  exact Cert.Bridge.result_eq _ _ hx hW

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_reference, trivial, algebraic⟩

end Cert.Proof

end
